-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4x16384 : Shape := ⟨3, ![512, 4, 16384]⟩
abbrev S_ : Shape := ⟨0, ![]⟩

class Facts : Prop where
  bcast_S_S512x4x16384 : S_.BroadcastsInDim S512x4x16384 (![] : Fin 0 → Fin S512x4x16384.rank)
  reducesTo_S512x4x16384_S_d0_1_2 : S512x4x16384.ReducesTo [0, 1, 2] S_
  h_S_ : 0 < S_.numel

variable [Facts]

def fn {F : FTy → Type} [FloatOps F] (main_arg0 : FVec F S512x4x16384 .f32) (main_arg1 : FVec F S512x4x16384 .f32) : IVec S_ 1 :=
  let main_v0 : FVec F S512x4x16384 .f32 := Host.absf main_arg0
  let main_cst : FVec F S_ .f32 := constant S_ .f32 0x7F800000#32
  let main_v1 : FVec F S512x4x16384 .f32 := broadcastInDim S512x4x16384 ![] bcast_S_S512x4x16384 main_cst
  let main_v2 : IVec S512x4x16384 1 := cmpf .olt main_v0 main_v1
  let main_c : IVec S_ 1 := constantI S_ 1 1#1
  let main_v3 : IVec S_ 1 := (fun x v => Host.reduce IntOp.andi x v reducesTo_S512x4x16384_S_d0_1_2 h_S_) main_v2 main_c
  let main_v4 : FVec F S512x4x16384 .f32 := Host.absf main_arg1
  let main_cst_0 : FVec F S_ .f32 := constant S_ .f32 0x7F800000#32
  let main_v5 : FVec F S512x4x16384 .f32 := broadcastInDim S512x4x16384 ![] bcast_S_S512x4x16384 main_cst_0
  let main_v6 : IVec S512x4x16384 1 := cmpf .olt main_v4 main_v5
  let main_c_1 : IVec S_ 1 := constantI S_ 1 1#1
  let main_v7 : IVec S_ 1 := (fun x v => Host.reduce IntOp.andi x v reducesTo_S512x4x16384_S_d0_1_2 h_S_) main_v6 main_c_1
  let main_v8 : IVec S_ 1 := andi main_v3 main_v7
  main_v8
-- ==== Kernel.lean ====
abbrev S512x4x16384 : Shape := ⟨3, ![512, 4, 16384]⟩
abbrev S512x4 : Shape := ⟨2, ![512, 4]⟩
abbrev S16x4x16384 : Shape := ⟨3, ![16, 4, 16384]⟩
abbrev S16x4 : Shape := ⟨2, ![16, 4]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S512x4x16384, .f32⟩
  | .hbm, ⟨1, _⟩ => ⟨S512x4x16384, .f32⟩
  | .hbm, ⟨2, _⟩ => ⟨S512x4, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S16x4x16384, .f32⟩
  | .local _ .vmem, ⟨1, _⟩ => ⟨S16x4x16384, .f32⟩
  | .local _ .vmem, ⟨2, _⟩ => ⟨S16x4x16384, .f32⟩
  | .local _ .vmem, ⟨3, _⟩ => ⟨S16x4x16384, .f32⟩
  | .local _ .vmem, ⟨4, _⟩ => ⟨S16x4, .f32⟩
  | .local _ .vmem, ⟨5, _⟩ => ⟨S16x4, .f32⟩
  | _, _ => ⟨S512x4x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16x4x16384_S16x4x16384_0_0_0 : ∀ a, (![0, 0, 0] : Fin 3 → Nat) a + S16x4x16384.size a ≤ S16x4x16384.size a
  h_S16x4x16384 : 0 < S16x4x16384.numel
  reduces_S16x4x16384_S16x4 : S16x4x16384.Reduces [2] S16x4
  inb_S16x4_S16x4_0_0 : ∀ a, (![0, 0] : Fin 2 → Nat) a + S16x4.size a ≤ S16x4.size a
  h_S16x4 : 0 < S16x4.numel
  reducesTo_S512x4_S_d0_1 : S512x4.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x16384.size a ≤ S512x4x16384.size a
  hwx0_0 : ∀ i : grid0.Coords, EltTy.bits .f32 = 32 ∨ (Rect.block (s := S512x4x16384) S16x4x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4x16384.size a ≤ S512x4x16384.size a
  hwx0_1 : ∀ i : grid0.Coords, EltTy.bits .f32 = 32 ∨ (Rect.block (s := S512x4x16384) S16x4x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4.size a ≤ S512x4.size a
  hwx0_2 : ∀ i : grid0.Coords, EltTy.bits .f32 = 32 ∨ (Rect.block (s := S512x4) S16x4.size (cc0_transform_2 i) (hinb0_2 i)).WholeWords (EltTy.packing .f32)

variable [Facts₀]

abbrev win0_0 : Pipeline.Window sig grid0 :=
  Pipeline.Window.ofSpec (Memref.whole main_arg0) S16x4x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x4x16384 : Shape := ⟨3, ![512, 4, 16384]⟩
abbrev S_ : Shape := ⟨0, ![]⟩
abbrev S512x4 : Shape := ⟨2, ![512, 4]⟩

abbrev nBuf : Space → Nat
  | .hbm => 49
  | .vmem => 0
  | .smem => 0
  | _ => 0

abbrev bufTy : (tb : Table) → Fin (tcTables nBuf tb) → BufTy
  | .hbm, ⟨0, _⟩ => ⟨S512x4x16384, .f32⟩
  | .hbm, ⟨1, _⟩ => ⟨S512x4x16384, .f32⟩
  | .hbm, ⟨2, _⟩ => ⟨S_, .f32⟩
  | .hbm, ⟨3, _⟩ => ⟨S512x4, .f32⟩
  | .hbm, ⟨4, _⟩ => ⟨S_, .f32⟩
  | .hbm, ⟨5, _⟩ => ⟨S512x4, .f32⟩
  | .hbm, ⟨6, _⟩ => ⟨S512x4x16384, .f32⟩
  | .hbm, ⟨7, _⟩ => ⟨S_, .f32⟩
  | .hbm, ⟨8, _⟩ => ⟨S512x4, .f32⟩
  | .hbm, ⟨9, _⟩ => ⟨S512x4x16384, .f32⟩
  | .hbm, ⟨10, _⟩ => ⟨S_, .f32⟩
  | .hbm, ⟨11, _⟩ => ⟨S512x4, .f32⟩
  | .hbm, ⟨12, _⟩ => ⟨S512x4x16384, .f32⟩
  | .hbm, ⟨13, _⟩ => ⟨S_, .f32⟩
  | .hbm, ⟨14, _⟩ => ⟨S512x4, .f32⟩
  | .hbm, ⟨15, _⟩ => ⟨S_, .f32⟩
  | .hbm, ⟨16, _⟩ => ⟨S512x4, .f32⟩
  | .hbm, ⟨17, _⟩ => ⟨S512x4, .f32⟩
  | .hbm, ⟨18, _⟩ => ⟨S512x4, .f32⟩
  | .hbm, ⟨19, _⟩ => ⟨S512x4, .f32⟩
  | .hbm, ⟨20, _⟩ => ⟨S_, .f32⟩
  | .hbm, ⟨21, _⟩ => ⟨S512x4, .f32⟩
  | .hbm, ⟨22, _⟩ => ⟨S512x4, .f32⟩
  | .hbm, ⟨23, _⟩ => ⟨S512x4, .f32⟩
  | .hbm, ⟨24, _⟩ => ⟨S512x4, .f32⟩
  | .hbm, ⟨25, _⟩ => ⟨S_, .f32⟩
  | .hbm, ⟨26, _⟩ => ⟨S512x4, .f32⟩
  | .hbm, ⟨27, _⟩ => ⟨S512x4, .f32⟩
  | .hbm, ⟨28, _⟩ => ⟨S512x4, .f32⟩
  | .hbm, ⟨29, _⟩ => ⟨S512x4, .f32⟩
  | .hbm, ⟨30, _⟩ => ⟨S512x4, .f32⟩
  | .hbm, ⟨31, _⟩ => ⟨S512x4, .f32⟩
  | .hbm, ⟨32, _⟩ => ⟨S512x4, .f32⟩
  | .hbm, ⟨33, _⟩ => ⟨S_, .f32⟩
  | .hbm, ⟨34, _⟩ => ⟨S512x4, .f32⟩
  | .hbm, ⟨35, _⟩ => ⟨S512x4, .i1⟩
  | .hbm, ⟨36, _⟩ => ⟨S512x4, .f32⟩
  | .hbm, ⟨37, _⟩ => ⟨S_, .f32⟩
  | .hbm, ⟨38, _⟩ => ⟨S512x4, .f32⟩
  | .hbm, ⟨39, _⟩ => ⟨S512x4, .f32⟩
  | .hbm, ⟨40, _⟩ => ⟨S512x4, .f32⟩
  | .hbm, ⟨41, _⟩ => ⟨S_, .f32⟩
  | .hbm, ⟨42, _⟩ => ⟨S512x4, .f32⟩
  | .hbm, ⟨43, _⟩ => ⟨S512x4, .f32⟩
  | .hbm, ⟨44, _⟩ => ⟨S512x4, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S512x4x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_cst_11 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  reducesTo_S512x4x16384_S512x4_d2 : S512x4x16384.ReducesTo [2] S512x4
  h_S_ : 0 < S_.numel
  bcast_S_S512x4 : S_.BroadcastsInDim S512x4 (![] : Fin 0 → Fin S512x4.rank)
  reducesTo_S512x4_S_d0_1 : S512x4.ReducesTo [0, 1] S_

variable [Facts₀]

class Facts : Prop extends Facts₀ where

variable [Facts]
-- ==== Proof.PearsonSpec.lean ====
/-
  The negative-Pearson loss as one function of the two argument arrays, at the extended reals.

  For a pair of rows x, y : Fin 16384 → EReal (one batch entry, one channel) write
    Sx = Σ x,  Sy = Σ y,  Sxy = Σ x·y,  Sxx = Σ x·x,  Syy = Σ y·y,   n = 16384.
  The row's correlation is  p = (n·Sxy − Sx·Sy) / sqrt ((n·Sxx − Sx·Sx) · (n·Syy − Sy·Sy))
  and its loss is  1 − p·p  where p ≥ 0 and  1 + p·p  elsewhere.  The result is the mean of the
  2048 row losses: their sum divided by 2048.

  Both programs compute exactly this, operation for operation and in the same operand order; they
  differ only in how the row sums are taken (a lane reduction of a 16-row block against a host
  reduction of the whole array) and in the order the rows are visited.  So no law of the extended
  reals beyond "a row sum is a row sum" is used, and nothing here needs the inputs to be finite.
-/
import Idealize.ShloMosaic.PureOps.Ideal
import Idealize.ShloMosaic.PureOps.Ideal.Laws
import Idealize.ShloMosaic.Lib.ValueIdx

noncomputable section

open scoped BigOperators

namespace Cert.Pearson

open Idealize.ShloMosaic Idealize.ShloMosaic.ValueIdx

/-- The argument arrays' shape, the per-row array's shape, and the scalar result's. -/
abbrev Arr : Shape := ⟨3, ![512, 4, 16384]⟩
abbrev Rows : Shape := ⟨2, ![512, 4]⟩
abbrev Sc : Shape := ⟨0, ![]⟩

/-- A row's correlation from its five sums: (n·Sxy − Sx·Sy) / sqrt ((n·Sxx − Sx·Sx) · (n·Syy − Sy·Sy)), n the word of 16384. -/
def corr (sx sy sxy sxx syy : EReal) : EReal :=
  Ideal.div (Ideal.ofBits .f32 0x46800000#32 * sxy - sx * sy)
    (Ideal.sqrt ((Ideal.ofBits .f32 0x46800000#32 * sxx - sx * sx) * (Ideal.ofBits .f32 0x46800000#32 * syy - sy * sy)))

/-- The loss of a correlation `p`: `1 − p·p` where `p ≥ 0`, `1 + p·p` elsewhere (the words of 0 and 1). -/
def lossOfCorr (p : EReal) : EReal :=
  Scalar.select (Ideal.cmp .oge p (Ideal.ofBits .f32 0x00000000#32))
    (Ideal.ofBits .f32 0x3F800000#32 - p * p) (Ideal.ofBits .f32 0x3F800000#32 + p * p)

/-- One row's loss from its five sums. The three constants are the words of 16384, 0 and 1; the same words stand in
    both programs, so none is evaluated. -/
def rowLoss (sx sy sxy sxx syy : EReal) : EReal := lossOfCorr (corr sx sy sxy sxx syy)

/-- One row's loss from the two rows themselves. -/
def rowLossOf (x y : Fin 16384 → EReal) : EReal :=
  rowLoss (∑ k, x k) (∑ k, y k) (∑ k, x k * y k) (∑ k, x k * x k) (∑ k, y k * y k)

/-- The array of row losses: entry (b, ch) is the loss of row (b, ch, ·) of the two arrays. -/
def perSample (x y : Arr.Idx → EReal) : Rows.Idx → EReal := fun j =>
  rowLossOf (fun k => x (ix3 (j 0) (j 1) k)) (fun k => y (ix3 (j 0) (j 1) k))

theorem perSample_apply (x y : Arr.Idx → EReal) (b : Fin 512) (ch : Fin 4) :
    perSample x y (ix2 b ch) = rowLossOf (fun k => x (ix3 b ch k)) (fun k => y (ix3 b ch k)) := rfl

/-- The mean of the row losses as both programs take it: the host's sum over both axes from the zero word,
    divided by the word of 2048. -/
def meanOver (per : FVec Ideal Rows .f32) : FVec Ideal Sc .f32 :=
  Host.divf (Host.reduceAdd (axes := [0, 1]) (t := Sc) per (constant Sc .f32 0x00000000#32))
    (constant Sc .f32 0x45000000#32)

/-- The whole result. -/
def loss (x y : Arr.Idx → EReal) : FVec Ideal Sc .f32 := meanOver (perSample x y)

end Cert.Pearson

end
-- ==== Proof.KernelBlock.lean ====
/-
  The idealized kernel computes the mean row loss.

  Grid point t loads rows 16t … 16t+15 of both arrays (all 4 channels, all 16384 lanes), takes the five lane sums of
  each row, and stores the 16×4 block of row losses; the 32 blocks tile the 512×4 array, which therefore ends holding
  the row loss of every row. The two host lines after the region then take that array's mean.
-/
import proofs.«142545_j25726854103345_1_alg».proof.Proof.Gen.KernelIdeal.Frame
import proofs.«142545_j25726854103345_1_alg».proof.Proof.PearsonSpec
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Cert.Pearson
open Idealize.ShloMosaic Idealize.ShloMosaic.TcCoe Idealize.ShloMosaic.ValueIdx Idealize.SL.Sem
open Idealize.ShloMosaic.Pipeline (Dat)

/-! ## One block's row losses -/

/-- The body's lane reduction of a 16×4×16384 block along its last axis, from the zero word. -/
abbrev rowSums (src : FVec Ideal S16x4x16384 .f32) : FVec Ideal S16x4 .f32 :=
  multiReduction .add [2] S16x4 src 0x00000000#32 reduces_S16x4x16384_S16x4 (.inl rfl) rfl

/-- At row (p, q) it is the sum of that row. -/
theorem laneSum (src : FVec Ideal S16x4x16384 .f32) (p : Fin 16) (q : Fin 4) :
    rowSums src (ix2 p q) = ∑ k : Fin 16384, src (ix3 p q k) :=
  (Ideal.multiReduction_add_single src 0x00000000#32 reduces_S16x4x16384_S16x4 (.inl rfl) rfl (ix2 p q)).trans
    (Finset.sum_congr rfl fun k _ => congrArg src
      (funext fun a => Fin.ext (by match a with | ⟨0, _⟩ => rfl | ⟨1, _⟩ => rfl | ⟨2, _⟩ => rfl)))

/-- The body's quotient as an array of the five row-sum arrays: everything between the reductions and the quotient is
    elementwise, and a broadcast scalar reads its word everywhere. -/
def quotientArr (sx sy sxy sxx syy : FVec Ideal S16x4 .f32) : FVec Ideal S16x4 .f32 :=
  divf (subf (mulf (broadcast S16x4 (Scalar.ofBits .f32 0x46800000#32)) sxy) (mulf sx sy))
    (sqrt (mulf (subf (mulf (broadcast S16x4 (Scalar.ofBits .f32 0x46800000#32)) sxx) (mulf sx sx))
                (subf (mulf (broadcast S16x4 (Scalar.ofBits .f32 0x46800000#32)) syy) (mulf sy sy))))

/-- The body's stored array as an array of its quotient: the compare against 0, the two branches, the `select`. -/
def lossArr (p : FVec Ideal S16x4 .f32) : FVec Ideal S16x4 .f32 :=
  select (cmpf .oge p (broadcast S16x4 (Scalar.ofBits .f32 0x00000000#32)))
    (subf (broadcast S16x4 (Scalar.ofBits .f32 0x3F800000#32)) (mulf p p))
    (addf (broadcast S16x4 (Scalar.ofBits .f32 0x3F800000#32)) (mulf p p))

/-- The body's stored value is that array of the five lane reductions of its two loaded blocks. -/
theorem pay_eq (x0 x1 : Vec Ideal S16x4x16384 .f32) :
    k0_pay1 (F := Ideal) x0 x1
      = lossArr (quotientArr (rowSums x0) (rowSums x1) (rowSums (mulf x0 x1)) (rowSums (mulf x0 x0)) (rowSums (mulf x1 x1))) := rfl

/-- Entry by entry the quotient is the correlation of the five sums there … -/
theorem quotientArr_apply (sx sy sxy sxx syy : FVec Ideal S16x4 .f32) (j : S16x4.Idx) :
    quotientArr sx sy sxy sxx syy j = corr (sx j) (sy j) (sxy j) (sxx j) (syy j) := rfl

/-- … and the stored value the loss of the quotient there. -/
theorem lossArr_apply (p : FVec Ideal S16x4 .f32) (j : S16x4.Idx) : lossArr p j = lossOfCorr (p j) := rfl

theorem pay_rowLoss (x0 x1 : Vec Ideal S16x4x16384 .f32) (j : S16x4.Idx) :
    k0_pay1 (F := Ideal) x0 x1 j
      = rowLoss (rowSums x0 j) (rowSums x1 j) (rowSums (mulf x0 x1) j) (rowSums (mulf x0 x0) j) (rowSums (mulf x1 x1) j) :=
  (congrFun (pay_eq x0 x1) j).trans ((lossArr_apply _ j).trans (congrArg lossOfCorr (quotientArr_apply _ _ _ _ _ j)))

/-- So it is the row loss of rows (p, q, ·) of the two loaded blocks. -/
theorem pay_at (x0 x1 : Vec Ideal S16x4x16384 .f32) (p : Fin 16) (q : Fin 4) :
    k0_pay1 (F := Ideal) x0 x1 (ix2 p q) = rowLossOf (fun k => x0 (ix3 p q k)) (fun k => x1 (ix3 p q k)) := by
  rw [pay_rowLoss, laneSum, laneSum, laneSum, laneSum, laneSum]
  rfl

/-- When those rows of the blocks are rows (b, ch, ·) of two arrays, it is the arrays' row loss at (b, ch). -/
theorem pay_eq_perSample (x0 x1 : Vec Ideal S16x4x16384 .f32) (a0 a1 : Arr.Idx → EReal)
    (p : Fin 16) (q : Fin 4) (b : Fin 512) (ch : Fin 4)
    (h0 : ∀ k : Fin 16384, x0 (ix3 p q k) = a0 (ix3 b ch k)) (h1 : ∀ k : Fin 16384, x1 (ix3 p q k) = a1 (ix3 b ch k)) :
    k0_pay1 (F := Ideal) x0 x1 (ix2 p q) = perSample a0 a1 (ix2 b ch) := by
  rw [pay_at, perSample_apply, show (fun k => x0 (ix3 p q k)) = fun k => a0 (ix3 b ch k) from funext h0,
    show (fun k => x1 (ix3 p q k)) = fun k => a1 (ix3 b ch k) from funext h1]

end Cert.KernelIdeal.KValue

end
-- ==== Proof.KernelArray.lean ====
/-
  From the blocks to the array, and on to the mean.

  Window 2's block at grid point t is rows 16t … 16t+15 of the 512×4 array, and the two input windows' blocks at t are
  the same rows of the argument arrays (channel and lane blocks both at index 0). So what point t writes back is
  block t of the arrays' row losses; every index (b, ch) lies in the block of point b / 16; hence the array ends
  holding the row loss of every row, and the host lines after the region return its mean.
-/
import proofs.«142545_j25726854103345_1_alg».proof.Proof.KernelBlock

set_option maxRecDepth 16384

noncomputable section

open scoped BigOperators

namespace Cert.KernelIdeal.KValue

open Cert.KernelIdeal Cert.KernelIdeal.Gen Cert.Pearson
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the 32 grid points: both inputs' row-block index is the output's, every other block
    index is 0, and the output's row-block index is below 32. -/
theorem block_indices : ∀ t : Fin cfg0.N,
    win0_0.index t (0 : Fin 3) = win0_2.index t (0 : Fin 2) ∧ win0_0.index t (1 : Fin 3) = 0 ∧ win0_0.index t (2 : Fin 3) = 0
    ∧ win0_1.index t (0 : Fin 3) = win0_2.index t (0 : Fin 2) ∧ win0_1.index t (1 : Fin 3) = 0 ∧ win0_1.index t (2 : Fin 3) = 0
    ∧ win0_2.index t (1 : Fin 2) = 0 ∧ win0_2.index t (0 : Fin 2) ≤ 31 :=
  (by decide +kernel : ∀ t : Fin grid0.N, _)

/-- Every row block is some point's. -/
theorem block_onto : ∀ q0 : Fin 32, ∃ t : Fin cfg0.N, win0_2.index t = ![q0.val, 0] :=
  (by decide +kernel : ∀ q0 : Fin 32, ∃ t : Fin grid0.N, win0_2.index t = ![q0.val, 0])

/-- A stored 16×4 array, written back at point t, is block t of a function on the 512×4 array as soon as it agrees with
    it entry by entry under the block's embedding: the write-back moves the whole block, and reading a function through
    the block reads it at the embedded index. -/
theorem cut_eq_read_of (t : Fin cfg0.N) (Y : Vec Ideal S16x4 .f32) (G : S512x4.Idx → EReal)
    (h : ∀ (p : Fin 16) (q : Fin 4), Y (ix2 p q) = G (((cfg0.win 2).blk t).view.emb (ix2 p q))) :
    (cfg0.win 2).cut (grid0.coords t) Y = ((cfg0.win 2).blk t).view.read (Elt Ideal) G := by
  funext j
  obtain ⟨p, q, rfl⟩ : ∃ (p : Fin 16) (q : Fin 4), j = ix2 p q := ⟨j 0, j 1, eq_ix2 j⟩
  exact h p q

/-- What point t writes back is block t of the arrays' row losses. -/
theorem flushed_eq (c : Dev nD) (t : Fin cfg0.N) :
    (dats m 0 c).flushed 2 t
      = ((cfg0.win 2).blk t).view.read (Elt Ideal) (perSample (V m c main_arg0) (V m c main_arg1)) := by
  show (cfg0.win 2).cut (grid0.coords t) ((dats m 0 c).after 2 t) = _
  rw [after0_2]
  unfold out0_2
  rw [View.canon_unit_zero zeros2]
  simp only [View.ld_unit_zero (S := S16x4x16384) zeros3]
  obtain ⟨e00, e01, e02, e10, e11, e12, e21, e20⟩ := block_indices t
  refine cut_eq_read_of t (k0_pay1 (F := Ideal) (iblk m c 0 t) (iblk m c 1 t))
    (perSample (V m c main_arg0) (V m c main_arg1)) (fun p q => ?_)
  have hp : p.val < 16 := p.isLt
  have hq : q.val < 4 := q.isLt
  -- the array index under (p, q) of block t: row 16·(row block of t) + p, channel q
  obtain ⟨b, ch, hb⟩ : ∃ (b : Fin 512) (ch : Fin 4), ((cfg0.win 2).blk t).view.emb (ix2 p q) = ix2 b ch :=
    ⟨_, _, eq_ix2 _⟩
  have hb0 : b.val = win0_2.index t (0 : Fin 2) * 16 + 1 * p.val := (congrArg (fun i => (i 0).val) hb).symm
  have hb1 : ch.val = win0_2.index t (1 : Fin 2) * 4 + 1 * q.val := (congrArg (fun i => (i 1).val) hb).symm
  rw [hb]
  refine pay_eq_perSample (iblk m c 0 t) (iblk m c 1 t) (V m c main_arg0) (V m c main_arg1) p q b ch (fun k => ?_) (fun k => ?_)
  · show V m c main_arg0 (((cfg0.win 0).blk t).view.emb (ix3 p q k)) = V m c main_arg0 (ix3 b ch k)
    refine congrArg (V m c main_arg0) (funext fun a => Fin.ext ?_)
    match a with
    | ⟨0, _⟩ => show win0_0.index t (0 : Fin 3) * 16 + 1 * p.val = b.val; omega
    | ⟨1, _⟩ => show win0_0.index t (1 : Fin 3) * 4 + 1 * q.val = ch.val; omega
    | ⟨2, _⟩ => show win0_0.index t (2 : Fin 3) * 16384 + 1 * k.val = k.val; omega
  · show V m c main_arg1 (((cfg0.win 1).blk t).view.emb (ix3 p q k)) = V m c main_arg1 (ix3 b ch k)
    refine congrArg (V m c main_arg1) (funext fun a => Fin.ext ?_)
    match a with
    | ⟨0, _⟩ => show win0_1.index t (0 : Fin 3) * 16 + 1 * p.val = b.val; omega
    | ⟨1, _⟩ => show win0_1.index t (1 : Fin 3) * 4 + 1 * q.val = ch.val; omega
    | ⟨2, _⟩ => show win0_1.index t (2 : Fin 3) * 16384 + 1 * k.val = k.val; omega

/-- An index of the 512×4 array is in point t's block iff each coordinate is in the block's range on its axis. -/
theorem mem_block (t : Fin cfg0.N) (i : S512x4.Idx) :
    i ∈ ((cfg0.win 2).blk t).view.set
      ↔ ∀ a : Fin 2, win0_2.index t a * S16x4.size a ≤ (i a).val ∧ (i a).val < win0_2.index t a * S16x4.size a + S16x4.size a := by
  show i ∈ ((View.whole main_v0).slice (win0_2.rect t)).set ↔ _
  rw [View.set_slice_whole, Rect.mem_set_unit]
  exact Iff.rfl

/-- The blocks tile the array: row b is in the block of the point whose row-block index is b / 16. -/
theorem covered (i : S512x4.Idx) :
    ∃ t : Fin cfg0.N, (cfg0.win 2).flush t = true ∧ i ∈ ((cfg0.win 2).blk t).view.set := by
  have hi0 : (i 0).val < 512 := (i 0).isLt
  have hi1 : (i 1).val < 4 := (i 1).isLt
  obtain ⟨t, ht⟩ := block_onto ⟨(i 0).val / 16, by omega⟩
  have q0 : win0_2.index t (0 : Fin 2) = (i 0).val / 16 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 4 ≤ (i 1).val ∧ (i 1).val < win0_2.index t (1 : Fin 2) * 4 + 4; omega

/-- The array after the run holds the row loss of every row of the argument arrays. -/
theorem final (c : Dev nD) :
    (dats m 0 c).arrAt 2 cfg0.N
      = perSample (m ((c : Thread nD τ).loc main_arg0)) (m ((c : Thread nD τ).loc main_arg1)) :=
  (dats m 0 c).arrAt_eq_of_cover 2 (perSample (V m c main_arg0) (V m c main_arg1)) (fun t _ => flushed_eq m c t) covered

/-- The two host lines after the region, as a function of the array they read: its mean. -/
theorem meanOver_eq (per : FVec Ideal S512x4 .f32) :
    Host.divf (Host.reduceAdd per (constant S_ .f32 0x00000000#32) reducesTo_S512x4_S_d0_1 h_S_)
      (constant S_ .f32 0x45000000#32) = meanOver per := rfl

/-- The host lines after the region return the mean of the array the region left: the mean row loss. -/
theorem tail_eq (c : Dev nD) :
    Pipeline.afterTail₀ cfgs (dats m) 0 (V0 m) [hostOps1] c main_v2
      = loss (m ((c : Thread nD τ).loc main_arg0)) (m ((c : Thread nD τ).loc main_arg1)) := by
  unfold Pipeline.afterTail₀
  show StableHlo.after hostOps1 _ (Proc.devRef .tc main_v2) = _
  after_results
  exact (congrArg (fun per : FVec Ideal S512x4 .f32 =>
      Host.divf (Host.reduceAdd per (constant S_ .f32 0x00000000#32) reducesTo_S512x4_S_d0_1 h_S_) (constant S_ .f32 0x45000000#32))
    ((Pipeline.withArrays_arr spec0 launch0.win.arr_inj c _ _ 2).trans (final m c))).trans (meanOver_eq _)

/-- The run of the idealized kernel: every weakly fair execution ends with the result at the mean row loss of the
    argument arrays, and the arguments unchanged. -/
theorem run_value : θ_run defs (onTc (τ := τ) (main (F := Ideal))) ⟨m, fun _ => 0, ρ⟩ fun r => ∀ c : Dev nD,
      r.2.mem ((c : Thread nD τ).loc main_v2)
        = loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.RefPerSample.lean ====
/-
  The reference computes the mean row loss.

  Its result term is the host's mean (sum over both axes, divided by 2048) of the array its `select` writes; that
  array, read at (b, ch), is the row loss of rows (b, ch, ·): each of its five host reductions along the last axis,
  started from the zero word, is the plain sum of that row (or of the row's products), and everything after the
  reductions is elementwise.
-/
import proofs.«142545_j25726854103345_1_alg».proof.Proof.Gen.ReferenceIdeal.Run
import proofs.«142545_j25726854103345_1_alg».proof.Proof.Gen.ReferenceIdeal.Read
import proofs.«142545_j25726854103345_1_alg».proof.Proof.PearsonSpec

noncomputable section

open scoped BigOperators

namespace Cert.ReferenceIdeal.RefValue

open Cert.ReferenceIdeal Cert.ReferenceIdeal.Gen Cert.ReferenceIdeal.Read Cert.Pearson
open Idealize.ShloMosaic Idealize.ShloMosaic.TcCoe Idealize.ShloMosaic.ValueIdx Idealize.SL.Sem

/-- The index the generated reading of a last-axis reduction uses is (b, ch, k). -/
theorem idx_row (b : Fin 512) (ch : Fin 4) (k : Fin 16384) : idx_main_v0 (ix2 b ch) k = ix3 b ch k :=
  funext fun a => Fin.ext (by match a with | ⟨0, _⟩ => rfl | ⟨1, _⟩ => rfl | ⟨2, _⟩ => rfl)

/-- A host reduction from the zero word adds nothing to the row's sum. -/
theorem zero_word_add (s : EReal) : Ideal.ofBits .f32 0x00000000#32 + s = s := by
  rw [Ideal.ofBits_zero_f32, zero_add]

/-- The five reductions at (b, ch): the row's sum, and the sums of the row's three kinds of products. -/
theorem sum_x (x0 : Arr.Idx → EReal) (b : Fin 512) (ch : Fin 4) :
    val_main_v0 (F := Ideal) x0 (ix2 b ch) = ∑ k : Fin 16384, x0 (ix3 b ch k) :=
  (val_main_v0_apply x0 (ix2 b ch)).trans ((zero_word_add _).trans
    (Finset.sum_congr rfl fun k _ => congrArg x0 (idx_row b ch k)))
theorem sum_y (x1 : Arr.Idx → EReal) (b : Fin 512) (ch : Fin 4) :
    val_main_v1 (F := Ideal) x1 (ix2 b ch) = ∑ k : Fin 16384, x1 (ix3 b ch k) :=
  (val_main_v1_apply x1 (ix2 b ch)).trans ((zero_word_add _).trans
    (Finset.sum_congr rfl fun k _ => congrArg x1 (idx_row b ch k)))
theorem sum_xy (x0 x1 : Arr.Idx → EReal) (b : Fin 512) (ch : Fin 4) :
    val_main_v3 (F := Ideal) x0 x1 (ix2 b ch) = ∑ k : Fin 16384, x0 (ix3 b ch k) * x1 (ix3 b ch k) :=
  (val_main_v3_apply x0 x1 (ix2 b ch)).trans ((zero_word_add _).trans
    (Finset.sum_congr rfl fun k _ => congrArg (fun i => x0 i * x1 i) (idx_row b ch k)))
theorem sum_xx (x0 : Arr.Idx → EReal) (b : Fin 512) (ch : Fin 4) :
    val_main_v5 (F := Ideal) x0 (ix2 b ch) = ∑ k : Fin 16384, x0 (ix3 b ch k) * x0 (ix3 b ch k) :=
  (val_main_v5_apply x0 (ix2 b ch)).trans ((zero_word_add _).trans
    (Finset.sum_congr rfl fun k _ => congrArg (fun i => x0 i * x0 i) (idx_row b ch k)))
theorem sum_yy (x1 : Arr.Idx → EReal) (b : Fin 512) (ch : Fin 4) :
    val_main_v7 (F := Ideal) x1 (ix2 b ch) = ∑ k : Fin 16384, x1 (ix3 b ch k) * x1 (ix3 b ch k) :=
  (val_main_v7_apply x1 (ix2 b ch)).trans ((zero_word_add _).trans
    (Finset.sum_congr rfl fun k _ => congrArg (fun i => x1 i * x1 i) (idx_row b ch k)))

/-- The reference's quotient at an entry is the correlation of its five reductions there: between them and the quotient
    all is elementwise, a broadcast scalar reading its word everywhere and the host's square root and quotient being the
    extended reals' own. -/
theorem quotient_eq_corr (x0 x1 : Arr.Idx → EReal) (j : Rows.Idx) :
    val_main_v22 (F := Ideal) x0 x1 j
      = corr (val_main_v0 (F := Ideal) x0 j) (val_main_v1 (F := Ideal) x1 j) (val_main_v3 (F := Ideal) x0 x1 j)
          (val_main_v5 (F := Ideal) x0 j) (val_main_v7 (F := Ideal) x1 j) := by
  simp only [val_main_v22_apply, val_main_v21_apply, val_main_v20_apply, val_main_v19_apply, val_main_v18_apply,
    val_main_v17_apply, val_main_v16_apply, val_main_cst_6_apply, val_main_v15_apply, val_main_v14_apply,
    val_main_v13_apply, val_main_v12_apply, val_main_cst_5_apply, val_main_v11_apply, val_main_v10_apply,
    val_main_v9_apply, val_main_v8_apply, val_main_cst_4_apply]
  generalize val_main_v0 (F := Ideal) x0 j = sx
  generalize val_main_v1 (F := Ideal) x1 j = sy
  generalize val_main_v3 (F := Ideal) x0 x1 j = sxy
  generalize val_main_v5 (F := Ideal) x0 j = sxx
  generalize val_main_v7 (F := Ideal) x1 j = syy
  rfl

/-- And what its `select` writes there is the loss of that quotient. -/
theorem select_eq_lossOfCorr (x0 x1 : Arr.Idx → EReal) (j : Rows.Idx) :
    val_main_v31 (F := Ideal) x0 x1 j = lossOfCorr (val_main_v22 (F := Ideal) x0 x1 j) := by
  simp only [val_main_v31_apply, val_main_v30_apply, val_main_v29_apply, val_main_cst_9_apply, val_main_v28_apply,
    val_main_v27_apply, val_main_v26_apply, val_main_cst_8_apply, val_main_v25_apply, val_main_v24_apply,
    val_main_v23_apply, val_main_cst_7_apply]
  rfl

theorem select_eq_rowLoss (x0 x1 : Arr.Idx → EReal) (j : Rows.Idx) :
    val_main_v31 (F := Ideal) x0 x1 j
      = rowLoss (val_main_v0 (F := Ideal) x0 j) (val_main_v1 (F := Ideal) x1 j) (val_main_v3 (F := Ideal) x0 x1 j)
          (val_main_v5 (F := Ideal) x0 j) (val_main_v7 (F := Ideal) x1 j) :=
  (select_eq_lossOfCorr x0 x1 j).trans (congrArg lossOfCorr (quotient_eq_corr x0 x1 j))

/-- The array of row losses. -/
theorem perSample_eq (x0 x1 : Arr.Idx → EReal) : val_main_v31 (F := Ideal) x0 x1 = perSample x0 x1 := by
  funext j
  obtain ⟨b, ch, rfl⟩ : ∃ (b : Fin 512) (ch : Fin 4), j = ix2 b ch := ⟨j 0, j 1, eq_ix2 j⟩
  rw [select_eq_rowLoss, sum_x, sum_y, sum_xy, sum_xx, sum_yy]
  rfl

/-- The reference's result is the mean row loss of its arguments. -/
theorem result_eq (m : (ℓ : Loc nD τ sig) → Buf (Elt Ideal) ℓ) (c : Dev nD) :
    Cert.ReferenceIdeal.Value.res_main_v33 m c
      = loss (m ((c.tc : Thread nD τ).loc main_arg0)) (m ((c.tc : Thread nD τ).loc main_arg1)) := by
  rw [val_main_v33_eq]
  show meanOver (val_main_v31 (F := Ideal) _ _) = _
  rw [perSample_eq]
  rfl

end Cert.ReferenceIdeal.RefValue

end
-- ==== Proof.lean ====
/-
  The negative-Pearson loss kernel against its jnp reference, over the extended reals.

  Both programs compute, for each of the 512·4 rows (batch entry, channel) of the two f32[512, 4, 16384] arguments,
  the five sums Sx, Sy, Sxy, Sxx, Syy over the 16384 lanes, the correlation
      p = (n·Sxy − Sx·Sy) / sqrt ((n·Sxx − Sx·Sx) · (n·Syy − Sy·Sy)),   n = 16384,
  the row loss 1 − p·p where p ≥ 0 and 1 + p·p elsewhere, and return the mean of the 2048 row losses (their sum
  from 0, divided by 2048). The kernel takes the sums as lane reductions of 16-row blocks, one grid point per block,
  and leaves the mean to two host lines after the call; the reference takes them as host reductions of the whole
  arrays. Operation for operation and constant for constant the two agree, in the same operand order, so the one
  fact joining them is that a row's sum is the same sum however the rows are grouped into blocks: no law of the
  extended reals that could fail at an infinity is used, and the precondition (finite inputs) is never opened.

  `Cert.Pearson.loss` (Proof/PearsonSpec.lean) is that function of the two arrays. Proof/KernelBlock.lean reads the
  kernel body's stored value at an entry as the row loss of the loaded blocks' rows; Proof/KernelArray.lean carries it
  from the 32 blocks to the whole array and through the host lines after the call, giving the idealized kernel's run;
  Proof/RefPerSample.lean reads the reference's result term the same way. Below, the five claims.

  The three frames are the programs' runs with the result forgotten; the idealization rewrote nothing, so
  `preserves` has nothing to state.
-/
import proofs.«142545_j25726854103345_1_alg».proof.Defs
import proofs.«142545_j25726854103345_1_alg».proof.Proof.Gen.Kernel
import proofs.«142545_j25726854103345_1_alg».proof.Proof.Gen.Kernel.Frame
import proofs.«142545_j25726854103345_1_alg».proof.Proof.Gen.KernelIdeal
import proofs.«142545_j25726854103345_1_alg».proof.Proof.Gen.KernelIdeal.Frame
import proofs.«142545_j25726854103345_1_alg».proof.Proof.Gen.ReferenceIdeal
import proofs.«142545_j25726854103345_1_alg».proof.Proof.Gen.ReferenceIdeal.Run
import proofs.«142545_j25726854103345_1_alg».proof.Proof.Gen.Pre_finite_inputs
import proofs.«142545_j25726854103345_1_alg».proof.Proof.KernelArray
import proofs.«142545_j25726854103345_1_alg».proof.Proof.RefPerSample
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both idealized programs end with the mean row loss of those
    arguments: the kernel's run states it of its own arguments, the reference's of its own, and the two pairs agree. -/
theorem algebraic : Cert.algebraic_KernelIdeal_ReferenceIdeal := by
  intro m ρ m' ρ' _ hagree
  refine ⟨fun c => Cert.Pearson.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
